-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S65536x4x50 : Shape := ⟨3, ![65536, 4, 50]⟩
abbrev S65536x13 : Shape := ⟨2, ![65536, 13]⟩
abbrev S16x1000000 : Shape := ⟨2, ![16, 1000000]⟩
abbrev S4x1000000 : Shape := ⟨2, ![4, 1000000]⟩
abbrev S13x1 : Shape := ⟨2, ![13, 1]⟩
abbrev S_ : Shape := ⟨0, ![]⟩

class Facts : Prop where
  bcast_S_S65536x13 : S_.BroadcastsInDim S65536x13 (![] : Fin 0 → Fin S65536x13.rank)
  reducesTo_S65536x13_S_d0_1 : S65536x13.ReducesTo [0, 1] S_
  h_S_ : 0 < S_.numel
  bcast_S_S16x1000000 : S_.BroadcastsInDim S16x1000000 (![] : Fin 0 → Fin S16x1000000.rank)
  reducesTo_S16x1000000_S_d0_1 : S16x1000000.ReducesTo [0, 1] S_
  bcast_S_S4x1000000 : S_.BroadcastsInDim S4x1000000 (![] : Fin 0 → Fin S4x1000000.rank)
  reducesTo_S4x1000000_S_d0_1 : S4x1000000.ReducesTo [0, 1] S_
  bcast_S_S13x1 : S_.BroadcastsInDim S13x1 (![] : Fin 0 → Fin S13x1.rank)
  reducesTo_S13x1_S_d0_1 : S13x1.ReducesTo [0, 1] S_

variable [Facts]

def fn_part1 {F : FTy → Type} [FloatOps F] (main_v13 : IVec S_ 1) (main_v16 : IVec S13x1 1) : IVec S_ 1 :=
  let main_c_5 : IVec S_ 1 := constantI S_ 1 1#1
  let main_v17 : IVec S_ 1 := (fun x v => Host.reduce IntOp.andi x v reducesTo_S13x1_S_d0_1 h_S_) main_v16 main_c_5
  let main_v18 : IVec S_ 1 := andi main_v13 main_v17
  main_v18

def fn {F : FTy → Type} [FloatOps F] (main_arg0 : IVec S65536x16 32) (main_arg1 : IVec S65536x4x50 32) (main_arg2 : FVec F S65536x13 .f32) (main_arg3 : FVec F S16x1000000 .f32) (main_arg4 : FVec F S4x1000000 .f32) (main_arg5 : FVec F S13x1 .f32) : IVec S_ 1 :=
  let main_v0 : FVec F S65536x13 .f32 := Host.absf main_arg2
  let main_cst : FVec F S_ .f32 := constant S_ .f32 0x7F800000#32
  let main_v1 : FVec F S65536x13 .f32 := broadcastInDim S65536x13 ![] bcast_S_S65536x13 main_cst
  let main_v2 : IVec S65536x13 1 := cmpf .olt main_v0 main_v1
  let main_c : IVec S_ 1 := constantI S_ 1 1#1
  let main_v3 : IVec S_ 1 := (fun x v => Host.reduce IntOp.andi x v reducesTo_S65536x13_S_d0_1 h_S_) main_v2 main_c
  let main_v4 : FVec F S16x1000000 .f32 := Host.absf main_arg3
  let main_cst_0 : FVec F S_ .f32 := constant S_ .f32 0x7F800000#32
  let main_v5 : FVec F S16x1000000 .f32 := broadcastInDim S16x1000000 ![] bcast_S_S16x1000000 main_cst_0
  let main_v6 : IVec S16x1000000 1 := cmpf .olt main_v4 main_v5
  let main_c_1 : IVec S_ 1 := constantI S_ 1 1#1
  let main_v7 : IVec S_ 1 := (fun x v => Host.reduce IntOp.andi x v reducesTo_S16x1000000_S_d0_1 h_S_) main_v6 main_c_1
  let main_v8 : IVec S_ 1 := andi main_v3 main_v7
  let main_v9 : FVec F S4x1000000 .f32 := Host.absf main_arg4
  let main_cst_2 : FVec F S_ .f32 := constant S_ .f32 0x7F800000#32
  let main_v10 : FVec F S4x1000000 .f32 := broadcastInDim S4x1000000 ![] bcast_S_S4x1000000 main_cst_2
  let main_v11 : IVec S4x1000000 1 := cmpf .olt main_v9 main_v10
  let main_c_3 : IVec S_ 1 := constantI S_ 1 1#1
  let main_v12 : IVec S_ 1 := (fun x v => Host.reduce IntOp.andi x v reducesTo_S4x1000000_S_d0_1 h_S_) main_v11 main_c_3
  let main_v13 : IVec S_ 1 := andi main_v8 main_v12
  let main_v14 : FVec F S13x1 .f32 := Host.absf main_arg5
  let main_cst_4 : FVec F S_ .f32 := constant S_ .f32 0x7F800000#32
  let main_v15 : FVec F S13x1 .f32 := broadcastInDim S13x1 ![] bcast_S_S13x1 main_cst_4
  let main_v16 : IVec S13x1 1 := cmpf .olt main_v14 main_v15
  fn_part1 (F := F) main_v13 main_v16
-- ==== Kernel.lean ====
abbrev S65536x16 : Shape := ⟨2, ![65536, 16]⟩
abbrev S65536x4x50 : Shape := ⟨3, ![65536, 4, 50]⟩
abbrev S65536x13 : Shape := ⟨2, ![65536, 13]⟩
abbrev S16x1000000 : Shape := ⟨2, ![16, 1000000]⟩
abbrev S4x1000000 : Shape := ⟨2, ![4, 1000000]⟩
abbrev S13x1 : Shape := ⟨2, ![13, 1]⟩
abbrev S16 : Shape := ⟨1, ![16]⟩
abbrev S1x16 : Shape := ⟨2, ![1, 16]⟩
abbrev S_ : Shape := ⟨0, ![]⟩
abbrev S65536x16x1 : Shape := ⟨3, ![65536, 16, 1]⟩
abbrev S65536x16x2 : Shape := ⟨3, ![65536, 16, 2]⟩
abbrev S4 : Shape := ⟨1, ![4]⟩
abbrev S1x4x1 : Shape := ⟨3, ![1, 4, 1]⟩
abbrev S65536x4x50x1 : Shape := ⟨4, ![65536, 4, 50, 1]⟩
abbrev S65536x4x50x2 : Shape := ⟨4, ![65536, 4, 50, 2]⟩
abbrev S65536x200 : Shape := ⟨2, ![65536, 200]⟩
abbrev S65536x1 : Shape := ⟨2, ![65536, 1]⟩
abbrev S2048x16 : Shape := ⟨2, ![2048, 16]⟩
abbrev S2048x200 : Shape := ⟨2, ![2048, 200]⟩
abbrev S2048x13 : Shape := ⟨2, ![2048, 13]⟩
abbrev S2048x1 : Shape := ⟨2, ![2048, 1]⟩
abbrev S2048 : Shape := ⟨1, ![2048]⟩

abbrev nBuf : Space → Nat
  | .hbm => 51
  | .vmem => 11
  | .smem => 0
  | _ => 0

abbrev bufTy : (tb : Table) → Fin (tcTables nBuf tb) → BufTy
  | .hbm, ⟨0, _⟩ => ⟨S65536x16, .i32⟩
  | .hbm, ⟨1, _⟩ => ⟨S65536x4x50, .i32⟩
  | .hbm, ⟨2, _⟩ => ⟨S65536x13, .f32⟩
  | .hbm, ⟨3, _⟩ => ⟨S16x1000000, .f32⟩
  | .hbm, ⟨4, _⟩ => ⟨S4x1000000, .f32⟩
  | .hbm, ⟨5, _⟩ => ⟨S13x1, .f32⟩
  | .hbm, ⟨6, _⟩ => ⟨S16, .i32⟩
  | .hbm, ⟨7, _⟩ => ⟨S1x16, .i32⟩
  | .hbm, ⟨8, _⟩ => ⟨S_, .i32⟩
  | .hbm, ⟨9, _⟩ => ⟨S1x16, .i32⟩
  | .hbm, ⟨10, _⟩ => ⟨S1x16, .i1⟩
  | .hbm, ⟨11, _⟩ => ⟨S_, .i32⟩
  | .hbm, ⟨12, _⟩ => ⟨S1x16, .i32⟩
  | .hbm, ⟨13, _⟩ => ⟨S1x16, .i32⟩
  | .hbm, ⟨14, _⟩ => ⟨S1x16, .i32⟩
  | .hbm, ⟨15, _⟩ => ⟨S_, .i32⟩
  | .hbm, ⟨16, _⟩ => ⟨S65536x16, .i32⟩
  | .hbm, ⟨17, _⟩ => ⟨S65536x16, .i1⟩
  | .hbm, ⟨18, _⟩ => ⟨S_, .i32⟩
  | .hbm, ⟨19, _⟩ => ⟨S65536x16, .i32⟩
  | .hbm, ⟨20, _⟩ => ⟨S65536x16, .i32⟩
  | .hbm, ⟨21, _⟩ => ⟨S65536x16, .i32⟩
  | .hbm, ⟨22, _⟩ => ⟨S65536x16, .i32⟩
  | .hbm, ⟨23, _⟩ => ⟨S65536x16x1, .i32⟩
  | .hbm, ⟨24, _⟩ => ⟨S65536x16x1, .i32⟩
  | .hbm, ⟨25, _⟩ => ⟨S65536x16x2, .i32⟩
  | .hbm, ⟨26, _⟩ => ⟨S65536x16, .f32⟩
  | .hbm, ⟨27, _⟩ => ⟨S4, .i32⟩
  | .hbm, ⟨28, _⟩ => ⟨S1x4x1, .i32⟩
  | .hbm, ⟨29, _⟩ => ⟨S_, .i32⟩
  | .hbm, ⟨30, _⟩ => ⟨S1x4x1, .i32⟩
  | .hbm, ⟨31, _⟩ => ⟨S1x4x1, .i1⟩
  | .hbm, ⟨32, _⟩ => ⟨S_, .i32⟩
  | .hbm, ⟨33, _⟩ => ⟨S1x4x1, .i32⟩
  | .hbm, ⟨34, _⟩ => ⟨S1x4x1, .i32⟩
  | .hbm, ⟨35, _⟩ => ⟨S1x4x1, .i32⟩
  | .hbm, ⟨36, _⟩ => ⟨S_, .i32⟩
  | .hbm, ⟨37, _⟩ => ⟨S65536x4x50, .i32⟩
  | .hbm, ⟨38, _⟩ => ⟨S65536x4x50, .i1⟩
  | .hbm, ⟨39, _⟩ => ⟨S_, .i32⟩
  | .hbm, ⟨40, _⟩ => ⟨S65536x4x50, .i32⟩
  | .hbm, ⟨41, _⟩ => ⟨S65536x4x50, .i32⟩
  | .hbm, ⟨42, _⟩ => ⟨S65536x4x50, .i32⟩
  | .hbm, ⟨43, _⟩ => ⟨S65536x4x50, .i32⟩
  | .hbm, ⟨44, _⟩ => ⟨S65536x4x50x1, .i32⟩
  | .hbm, ⟨45, _⟩ => ⟨S65536x4x50x1, .i32⟩
  | .hbm, ⟨46, _⟩ => ⟨S65536x4x50x2, .i32⟩
  | .hbm, ⟨47, _⟩ => ⟨S65536x4x50, .f32⟩
  | .hbm, ⟨48, _⟩ => ⟨S65536x200, .f32⟩
  | .hbm, ⟨49, _⟩ => ⟨S65536x200, .i32⟩
  | .hbm, ⟨50, _⟩ => ⟨S65536x1, .f32⟩
  | .local _ .vmem, ⟨0, _⟩ => ⟨S2048x16, .f32⟩
  | .local _ .vmem, ⟨1, _⟩ => ⟨S2048x16, .f32⟩
  | .local _ .vmem, ⟨2, _⟩ => ⟨S2048x200, .f32⟩
  | .local _ .vmem, ⟨3, _⟩ => ⟨S2048x200, .f32⟩
  | .local _ .vmem, ⟨4, _⟩ => ⟨S2048x200, .i32⟩
  | .local _ .vmem, ⟨5, _⟩ => ⟨S2048x200, .i32⟩
  | .local _ .vmem, ⟨6, _⟩ => ⟨S2048x13, .f32⟩
  | .local _ .vmem, ⟨7, _⟩ => ⟨S2048x13, .f32⟩
  | .local _ .vmem, ⟨8, _⟩ => ⟨S13x1, .f32⟩
  | .local _ .vmem, ⟨9, _⟩ => ⟨S2048x1, .f32⟩
  | .local _ .vmem, ⟨10, _⟩ => ⟨S2048x1, .f32⟩
  | _, _ => ⟨S65536x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S13x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S16_S1x16_1 : S16.BroadcastsInDim S1x16 (![1] : Fin 1 → Fin S1x16.rank)
  bcast_S_S1x16 : S_.BroadcastsInDim S1x16 (![] : Fin 0 → Fin S1x16.rank)
  bcast_S_S65536x16 : S_.BroadcastsInDim S65536x16 (![] : Fin 0 → Fin S65536x16.rank)
  bcast_S1x16_S65536x16_0_1 : S1x16.BroadcastsInDim S65536x16 (![0, 1] : Fin 2 → Fin S65536x16.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S_S65536x4x50 : S_.BroadcastsInDim S65536x4x50 (![] : Fin 0 → Fin S65536x4x50.rank)
  bcast_S1x4x1_S65536x4x50_0_1_2 : S1x4x1.BroadcastsInDim S65536x4x50 (![0, 1, 2] : Fin 3 → Fin S65536x4x50.rank)
  bcast_S65536x4x50_S65536x4x50x1_0_1_2 : S65536x4x50.BroadcastsInDim S65536x4x50x1 (![0, 1, 2] : Fin 3 → Fin S65536x4x50x1.rank)
  concatenates_S65536x4x50x1_S65536x4x50x1_S65536x4x50x2_d3 : Shape.Concatenates [S65536x4x50x1, S65536x4x50x1] S65536x4x50x2 3
  shapeCasts_S65536x4x50_S65536x200 : S65536x4x50.ShapeCasts S65536x200
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x200_S2048x200_0_0 : ∀ a, (![0, 0] : Fin 2 → Nat) a + S2048x200.size a ≤ S2048x200.size a
  h_S2048x200 : 0 < S2048x200.numel
  shapeCasts_S2048x200_S2048x200 : S2048x200.ShapeCasts S2048x200
  inb_S2048x13_S2048x13_0_0 : ∀ a, (![0, 0] : Fin 2 → Nat) a + S2048x13.size a ≤ S2048x13.size a
  h_S2048x13 : 0 < S2048x13.numel
  inb_S13x1_S13x1_0_0 : ∀ a, (![0, 0] : Fin 2 → Nat) a + S13x1.size a ≤ S13x1.size a
  h_S13x1 : 0 < S13x1.numel
  natLt_1_32 : 1 < 32
  reduces_S2048x200_S2048 : S2048x200.Reduces [1] S2048
  shapeCasts_S2048_S2048x1 : S2048.ShapeCasts S2048x1
  reduces_S2048x16_S2048 : S2048x16.Reduces [1] S2048
  inb_S2048x1_S2048x1_0_0 : ∀ a, (![0, 0] : Fin 2 → Nat) a + S2048x1.size a ≤ S2048x1.size a
  h_S2048x1 : 0 < S2048x1.numel
  gather_S16x1000000_S65536x16x2_S65536x16_n_01_n_n_01_2_11_wf : GatherDims.WF S16x1000000 S65536x16x2 S65536x16 [] [0, 1] [] [0, 1] [] 2 ![1, 1]
  gather_S4x1000000_S65536x4x50x2_S65536x4x50_n_01_n_n_01_3_11_wf : GatherDims.WF S4x1000000 S65536x4x50x2 S65536x4x50 [] [0, 1] [] [0, 1] [] 3 ![1, 1]
  dot_S2048x13_S13x1_S2048x1_1_0_0_1_n_n_wf : DotDims.WF S2048x13 S13x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S65536x16.size a
  hwx0_0 : ∀ i : grid0.Coords, EltTy.bits .f32 = 32 ∨ (Rect.block (s := S65536x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x200.size a ≤ S65536x200.size a
  hwx0_1 : ∀ i : grid0.Coords, EltTy.bits .f32 = 32 ∨ (Rect.block (s := S65536x200) S2048x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x200.size a ≤ S65536x200.size a
  hwx0_2 : ∀ i : grid0.Coords, EltTy.bits .i32 = 32 ∨ (Rect.block (s := S65536x200) S2048x200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x13.size a ≤ S65536x13.size a
  hwx0_3 : ∀ i : grid0.Coords, EltTy.bits .f32 = 32 ∨ (Rect.block (s := S65536x13) S2048x13.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x1.size a ≤ S13x1.size a
  hwx0_4 : ∀ i : grid0.Coords, EltTy.bits .f32 = 32 ∨ (Rect.block (s := S13x1) S13x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S65536x1.size a
  hwx0_5 : ∀ i : grid0.Coords, EltTy.bits .f32 = 32 ∨ (Rect.block (s := S65536x1) S2048x1.size (cc0_transform_5 i) (hinb0_5 i)).WholeWords (EltTy.packing .f32)

variable [Facts₀]

def gather_S16x1000000_S65536x16x2_S65536x16_n_01_n_n_01_2_11 : GatherDims S16x1000000 S65536x16x2 S65536x16 where
  offsetDims := []
  collapsedSliceDims := [0, 1]
  operandBatchingDims := []
  startIndicesBatchingDims := []
  startIndexMap := [0, 1]
  indexVectorDim := 2
  sliceSizes := ![1, 1]
  wf := gather_S16x1000000_S65536x16x2_S65536x16_n_01_n_n_01_2_11_wf
def gather_S4x1000000_S65536x4x50x2_S65536x4x50_n_01_n_n_01_3_11 : GatherDims S4x1000000 S65536x4x50x2 S65536x4x50 where
  offsetDims := []
  collapsedSliceDims := [0, 1]
  operandBatchingDims := []
  startIndicesBatchingDims := []
  startIndexMap := [0, 1]
  indexVectorDim := 3
  sliceSizes := ![1, 1]
  wf := gather_S4x1000000_S65536x4x50x2_S65536x4x50_n_01_n_n_01_3_11_wf
def dot_S2048x13_S13x1_S2048x1_1_0_0_1_n_n : DotDims S2048x13 S13x1 S2048x1 where
  lhsContracting := [1]
  rhsContracting := [0]
  lhsNonContracting := [0]
  rhsNonContracting := [1]
  lhsBatch := []
  rhsBatch := []
  wf := dot_S2048x13_S13x1_S2048x1_1_0_0_1_n_n_wf

abbrev win0_0 : Pipeline.Window sig grid0 :=
  Pipeline.Window.ofSpec (Memref.whole main_v16) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2048x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2048x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x13.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S13x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x16 : Shape := ⟨2, ![65536, 16]⟩
abbrev S65536x4x50 : Shape := ⟨3, ![65536, 4, 50]⟩
abbrev S65536x13 : Shape := ⟨2, ![65536, 13]⟩
abbrev S16x1000000 : Shape := ⟨2, ![16, 1000000]⟩
abbrev S4x1000000 : Shape := ⟨2, ![4, 1000000]⟩
abbrev S13x1 : Shape := ⟨2, ![13, 1]⟩
abbrev S16 : Shape := ⟨1, ![16]⟩
abbrev S1x16 : Shape := ⟨2, ![1, 16]⟩
abbrev S_ : Shape := ⟨0, ![]⟩
abbrev S65536x16x1 : Shape := ⟨3, ![65536, 16, 1]⟩
abbrev S65536x16x2 : Shape := ⟨3, ![65536, 16, 2]⟩
abbrev S4 : Shape := ⟨1, ![4]⟩
abbrev S1x4x1 : Shape := ⟨3, ![1, 4, 1]⟩
abbrev S65536x4x50x1 : Shape := ⟨4, ![65536, 4, 50, 1]⟩
abbrev S65536x4x50x2 : Shape := ⟨4, ![65536, 4, 50, 2]⟩
abbrev S65536x4 : Shape := ⟨2, ![65536, 4]⟩
abbrev S65536 : Shape := ⟨1, ![65536]⟩
abbrev S65536x1 : Shape := ⟨2, ![65536, 1]⟩

abbrev nBuf : Space → Nat
  | .hbm => 63
  | .vmem => 0
  | .smem => 0
  | _ => 0

abbrev bufTy : (tb : Table) → Fin (tcTables nBuf tb) → BufTy
  | .hbm, ⟨0, _⟩ => ⟨S65536x16, .i32⟩
  | .hbm, ⟨1, _⟩ => ⟨S65536x4x50, .i32⟩
  | .hbm, ⟨2, _⟩ => ⟨S65536x13, .f32⟩
  | .hbm, ⟨3, _⟩ => ⟨S16x1000000, .f32⟩
  | .hbm, ⟨4, _⟩ => ⟨S4x1000000, .f32⟩
  | .hbm, ⟨5, _⟩ => ⟨S13x1, .f32⟩
  | .hbm, ⟨6, _⟩ => ⟨S16, .i32⟩
  | .hbm, ⟨7, _⟩ => ⟨S1x16, .i32⟩
  | .hbm, ⟨8, _⟩ => ⟨S_, .i32⟩
  | .hbm, ⟨9, _⟩ => ⟨S1x16, .i32⟩
  | .hbm, ⟨10, _⟩ => ⟨S1x16, .i1⟩
  | .hbm, ⟨11, _⟩ => ⟨S_, .i32⟩
  | .hbm, ⟨12, _⟩ => ⟨S1x16, .i32⟩
  | .hbm, ⟨13, _⟩ => ⟨S1x16, .i32⟩
  | .hbm, ⟨14, _⟩ => ⟨S1x16, .i32⟩
  | .hbm, ⟨15, _⟩ => ⟨S_, .i32⟩
  | .hbm, ⟨16, _⟩ => ⟨S65536x16, .i32⟩
  | .hbm, ⟨17, _⟩ => ⟨S65536x16, .i1⟩
  | .hbm, ⟨18, _⟩ => ⟨S_, .i32⟩
  | .hbm, ⟨19, _⟩ => ⟨S65536x16, .i32⟩
  | .hbm, ⟨20, _⟩ => ⟨S65536x16, .i32⟩
  | .hbm, ⟨21, _⟩ => ⟨S65536x16, .i32⟩
  | .hbm, ⟨22, _⟩ => ⟨S65536x16, .i32⟩
  | .hbm, ⟨23, _⟩ => ⟨S65536x16x1, .i32⟩
  | .hbm, ⟨24, _⟩ => ⟨S65536x16x1, .i32⟩
  | .hbm, ⟨25, _⟩ => ⟨S65536x16x2, .i32⟩
  | .hbm, ⟨26, _⟩ => ⟨S65536x16, .f32⟩
  | .hbm, ⟨27, _⟩ => ⟨S4, .i32⟩
  | .hbm, ⟨28, _⟩ => ⟨S1x4x1, .i32⟩
  | .hbm, ⟨29, _⟩ => ⟨S_, .i32⟩
  | .hbm, ⟨30, _⟩ => ⟨S1x4x1, .i32⟩
  | .hbm, ⟨31, _⟩ => ⟨S1x4x1, .i1⟩
  | .hbm, ⟨32, _⟩ => ⟨S_, .i32⟩
  | .hbm, ⟨33, _⟩ => ⟨S1x4x1, .i32⟩
  | .hbm, ⟨34, _⟩ => ⟨S1x4x1, .i32⟩
  | .hbm, ⟨35, _⟩ => ⟨S1x4x1, .i32⟩
  | .hbm, ⟨36, _⟩ => ⟨S_, .i32⟩
  | .hbm, ⟨37, _⟩ => ⟨S65536x4x50, .i32⟩
  | .hbm, ⟨38, _⟩ => ⟨S65536x4x50, .i1⟩
  | .hbm, ⟨39, _⟩ => ⟨S_, .i32⟩
  | .hbm, ⟨40, _⟩ => ⟨S65536x4x50, .i32⟩
  | .hbm, ⟨41, _⟩ => ⟨S65536x4x50, .i32⟩
  | .hbm, ⟨42, _⟩ => ⟨S65536x4x50, .i32⟩
  | .hbm, ⟨43, _⟩ => ⟨S65536x4x50, .i32⟩
  | .hbm, ⟨44, _⟩ => ⟨S65536x4x50x1, .i32⟩
  | .hbm, ⟨45, _⟩ => ⟨S65536x4x50x1, .i32⟩
  | .hbm, ⟨46, _⟩ => ⟨S65536x4x50x2, .i32⟩
  | .hbm, ⟨47, _⟩ => ⟨S65536x4x50, .f32⟩
  | .hbm, ⟨48, _⟩ => ⟨S_, .i32⟩
  | .hbm, ⟨49, _⟩ => ⟨S65536x4x50, .i32⟩
  | .hbm, ⟨50, _⟩ => ⟨S65536x4x50, .i1⟩
  | .hbm, ⟨51, _⟩ => ⟨S65536x4x50, .f32⟩
  | .hbm, ⟨52, _⟩ => ⟨S65536x4x50, .f32⟩
  | .hbm, ⟨53, _⟩ => ⟨S_, .f32⟩
  | .hbm, ⟨54, _⟩ => ⟨S65536x4, .f32⟩
  | .hbm, ⟨55, _⟩ => ⟨S_, .f32⟩
  | .hbm, ⟨56, _⟩ => ⟨S65536, .f32⟩
  | .hbm, ⟨57, _⟩ => ⟨S_, .f32⟩
  | .hbm, ⟨58, _⟩ => ⟨S65536, .f32⟩
  | .hbm, ⟨59, _⟩ => ⟨S65536, .f32⟩
  | .hbm, ⟨60, _⟩ => ⟨S65536x1, .f32⟩
  | .hbm, ⟨61, _⟩ => ⟨S65536x1, .f32⟩
  | .hbm, ⟨62, _⟩ => ⟨S65536x1, .f32⟩
  | _, _ => ⟨S65536x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S_S1x16 : S_.BroadcastsInDim S1x16 (![] : Fin 0 → Fin S1x16.rank)
  bcast_S_S65536x16 : S_.BroadcastsInDim S65536x16 (![] : Fin 0 → Fin S65536x16.rank)
  bcast_S1x16_S65536x16_0_1 : S1x16.BroadcastsInDim S65536x16 (![0, 1] : Fin 2 → Fin S65536x16.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S_S65536x4x50 : S_.BroadcastsInDim S65536x4x50 (![] : Fin 0 → Fin S65536x4x50.rank)
  bcast_S1x4x1_S65536x4x50_0_1_2 : S1x4x1.BroadcastsInDim S65536x4x50 (![0, 1, 2] : Fin 3 → Fin S65536x4x50.rank)
  bcast_S65536x4x50_S65536x4x50x1_0_1_2 : S65536x4x50.BroadcastsInDim S65536x4x50x1 (![0, 1, 2] : Fin 3 → Fin S65536x4x50x1.rank)
  concatenates_S65536x4x50x1_S65536x4x50x1_S65536x4x50x2_d3 : Shape.Concatenates [S65536x4x50x1, S65536x4x50x1] S65536x4x50x2 3
  reducesTo_S65536x4x50_S65536x4_d2 : S65536x4x50.ReducesTo [2] S65536x4
  h_S_ : 0 < S_.numel
  reducesTo_S65536x16_S65536_d1 : S65536x16.ReducesTo [1] S65536
  reducesTo_S65536x4_S65536_d1 : S65536x4.ReducesTo [1] S65536
  bcast_S65536_S65536x1_0 : S65536.BroadcastsInDim S65536x1 (![0] : Fin 1 → Fin S65536x1.rank)
  gather_S16x1000000_S65536x16x2_S65536x16_n_01_n_n_01_2_11_wf : GatherDims.WF S16x1000000 S65536x16x2 S65536x16 [] [0, 1] [] [0, 1] [] 2 ![1, 1]
  gather_S4x1000000_S65536x4x50x2_S65536x4x50_n_01_n_n_01_3_11_wf : GatherDims.WF S4x1000000 S65536x4x50x2 S65536x4x50 [] [0, 1] [] [0, 1] [] 3 ![1, 1]
  dot_S65536x13_S13x1_S65536x1_1_0_0_1_n_n_wf : DotDims.WF S65536x13 S13x1 S65536x1 [1] [0] [0] [1] [] []

variable [Facts₀]

def gather_S16x1000000_S65536x16x2_S65536x16_n_01_n_n_01_2_11 : GatherDims S16x1000000 S65536x16x2 S65536x16 where
  offsetDims := []
  collapsedSliceDims := [0, 1]
  operandBatchingDims := []
  startIndicesBatchingDims := []
  startIndexMap := [0, 1]
  indexVectorDim := 2
  sliceSizes := ![1, 1]
  wf := gather_S16x1000000_S65536x16x2_S65536x16_n_01_n_n_01_2_11_wf
def gather_S4x1000000_S65536x4x50x2_S65536x4x50_n_01_n_n_01_3_11 : GatherDims S4x1000000 S65536x4x50x2 S65536x4x50 where
  offsetDims := []
  collapsedSliceDims := [0, 1]
  operandBatchingDims := []
  startIndicesBatchingDims := []
  startIndexMap := [0, 1]
  indexVectorDim := 3
  sliceSizes := ![1, 1]
  wf := gather_S4x1000000_S65536x4x50x2_S65536x4x50_n_01_n_n_01_3_11_wf
def dot_S65536x13_S13x1_S65536x1_1_0_0_1_n_n : DotDims S65536x13 S13x1 S65536x1 where
  lhsContracting := [1]
  rhsContracting := [0]
  lhsNonContracting := [0]
  rhsNonContracting := [1]
  lhsBatch := []
  rhsBatch := []
  wf := dot_S65536x13_S13x1_S65536x1_1_0_0_1_n_n_wf

class Facts : Prop extends Facts₀ where

variable [Facts]
-- ==== Proof.Spec.lean ====
/-
  The pooled logit as ONE function of the gathered embeddings, the padded ids, the dense features and their weights,
  index by index on the extended reals, in two arrangements: the varlen embeddings laid out as [batch, table, position]
  (summed position first, then table) and laid out flat as [batch, table * position] (summed in one pass). The two agree
  because a sum over 200 = 4 * 50 positions regroups into 4 sums of 50: only commutativity and associativity of the
  extended reals' addition are used, so no finiteness of the inputs is needed.
-/
import Idealize.ShloMosaic.PureOps.Ideal
import Idealize.ShloMosaic.Lib.ValueIdx
import Idealize.ShloMosaic.Lib.Pipeline.Value
import Mathlib.Algebra.BigOperators.Fin

noncomputable section

namespace Cert.Spec

open Idealize.ShloMosaic Idealize.ShloMosaic.ValueIdx

/-- The pooling mask of one id: `1` when the id is positive (read signed), `0` for the padding id and below. -/
def keep (w : BitVec 32) : EReal := FloatOps.uitofp (F := Ideal) .f32 (IntOp.cmpi .sgt w 0#32)

/-- A one-bit word read unsigned, and the same bit widened to 32 bits and read signed, are the same number. -/
theorem bit_signed_eq_unsigned (b : BitVec 1) : ((b.setWidth 32).toInt : ℝ) = (b.toNat : ℝ) := by
  rcases BitVec.eq_zero_or_eq_one b with rfl | rfl <;> simp

/-- The mask as the kernel computes it — the compare's bit widened to 32 bits, then converted as a signed integer — is
    the mask as the reference computes it, the bit converted as an unsigned integer. -/
theorem keep_of_widened (w : BitVec 32) :
    FloatOps.sitofp (F := Ideal) .f32 ((IntOp.cmpi .sgt w 0#32).setWidth 32) = keep w := by
  show ((((IntOp.cmpi .sgt w 0#32).setWidth 32).toInt : ℝ) : EReal) = (((IntOp.cmpi .sgt w 0#32).toNat : ℝ) : EReal)
  rw [bit_signed_eq_unsigned]

/-- A sum over the 200 flat positions is the sum over the 4 tables of the sums over each table's 50 positions. -/
theorem sum_flat {M : Type*} [AddCommMonoid M] (f : Fin 200 → M) :
    ∑ k : Fin 200, f k = ∑ a : Fin 4, ∑ l : Fin 50, f ⟨a.val * 50 + l.val, by have := a.isLt; have := l.isLt; omega⟩ := by
  rw [← Equiv.sum_comp (finProdFinEquiv (m := 4) (n := 50)) f, Fintype.sum_prod_type]
  refine Finset.sum_congr rfl fun a _ => Finset.sum_congr rfl fun l _ => congrArg f (Fin.ext ?_)
  show l.val + 50 * a.val = a.val * 50 + l.val
  omega

/-- The logit of batch row `b` (output column `q`, of which there is one), the varlen embeddings as
    [batch, table, position]: the sixteen single-valued embeddings, plus over the four tables the fifty masked
    embeddings, plus the thirteen dense features against their weights. -/
def logitAt (sp : (⟨2, ![65536, 16]⟩ : Shape).Idx → EReal) (vl : (⟨3, ![65536, 4, 50]⟩ : Shape).Idx → EReal)
    (ids : (⟨3, ![65536, 4, 50]⟩ : Shape).Idx → BitVec 32) (dv : (⟨2, ![65536, 13]⟩ : Shape).Idx → EReal)
    (dw : (⟨2, ![13, 1]⟩ : Shape).Idx → EReal) (b : Fin 65536) (q : Fin 1) : EReal :=
  ((∑ k : Fin 16, sp (ix2 b k)) + ∑ a : Fin 4, ∑ l : Fin 50, vl (ix3 b a l) * keep (ids (ix3 b a l)))
    + ∑ d : Fin 13, dv (ix2 b d) * dw (ix2 d q)

/-- The same logit, the varlen embeddings and ids laid out flat as [batch, 200]. -/
def logitFlatAt (sp : (⟨2, ![65536, 16]⟩ : Shape).Idx → EReal) (vf : (⟨2, ![65536, 200]⟩ : Shape).Idx → EReal)
    (idf : (⟨2, ![65536, 200]⟩ : Shape).Idx → BitVec 32) (dv : (⟨2, ![65536, 13]⟩ : Shape).Idx → EReal)
    (dw : (⟨2, ![13, 1]⟩ : Shape).Idx → EReal) (b : Fin 65536) (q : Fin 1) : EReal :=
  ((∑ k : Fin 16, sp (ix2 b k)) + ∑ k : Fin 200, vf (ix2 b k) * keep (idf (ix2 b k)))
    + ∑ d : Fin 13, dv (ix2 b d) * dw (ix2 d q)

/-- The logits as an array [batch, 1]. -/
def logit (sp : (⟨2, ![65536, 16]⟩ : Shape).Idx → EReal) (vl : (⟨3, ![65536, 4, 50]⟩ : Shape).Idx → EReal)
    (ids : (⟨3, ![65536, 4, 50]⟩ : Shape).Idx → BitVec 32) (dv : (⟨2, ![65536, 13]⟩ : Shape).Idx → EReal)
    (dw : (⟨2, ![13, 1]⟩ : Shape).Idx → EReal) : (⟨2, ![65536, 1]⟩ : Shape).Idx → EReal :=
  fun i => logitAt sp vl ids dv dw (i 0) (i 1)

/-- The logits from the flat layout, as an array [batch, 1]. -/
def logitFlat (sp : (⟨2, ![65536, 16]⟩ : Shape).Idx → EReal) (vf : (⟨2, ![65536, 200]⟩ : Shape).Idx → EReal)
    (idf : (⟨2, ![65536, 200]⟩ : Shape).Idx → BitVec 32) (dv : (⟨2, ![65536, 13]⟩ : Shape).Idx → EReal)
    (dw : (⟨2, ![13, 1]⟩ : Shape).Idx → EReal) : (⟨2, ![65536, 1]⟩ : Shape).Idx → EReal :=
  fun i => logitFlatAt sp vf idf dv dw (i 0) (i 1)

/-- A [65536, 4, 50] array reshaped to [65536, 200] reads, at row `b` and flat position `a * 50 + l`, the operand at
    `(b, a, l)`: the two have the same row-major position. -/
theorem reshape_flat_apply {α : Type} (x : (⟨3, ![65536, 4, 50]⟩ : Shape).Idx → α)
    (h : (⟨3, ![65536, 4, 50]⟩ : Shape).ShapeCasts ⟨2, ![65536, 200]⟩) (b : Fin 65536) (a : Fin 4) (l : Fin 50) :
    shapeCast ⟨2, ![65536, 200]⟩ x h (ix2 b ⟨a.val * 50 + l.val, by have := a.isLt; have := l.isLt; omega⟩) = x (ix3 b a l) :=
  shapeCast_apply x h _ _ (by
    rw [Shape.rowMajor_val_three, Shape.rowMajor_val_two]
    show (b.val * 4 + a.val) * 50 + l.val = b.val * 200 + (a.val * 50 + l.val)
    omega)

/-- At one row, the flat arrangement of the reshaped arrays is the [batch, table, position] arrangement. -/
theorem logitFlatAt_reshape (sp : (⟨2, ![65536, 16]⟩ : Shape).Idx → EReal) (vl : (⟨3, ![65536, 4, 50]⟩ : Shape).Idx → EReal)
    (ids : (⟨3, ![65536, 4, 50]⟩ : Shape).Idx → BitVec 32) (dv : (⟨2, ![65536, 13]⟩ : Shape).Idx → EReal)
    (dw : (⟨2, ![13, 1]⟩ : Shape).Idx → EReal)
    (h : (⟨3, ![65536, 4, 50]⟩ : Shape).ShapeCasts ⟨2, ![65536, 200]⟩) (b : Fin 65536) (q : Fin 1) :
    logitFlatAt sp (shapeCast ⟨2, ![65536, 200]⟩ vl h) (shapeCast ⟨2, ![65536, 200]⟩ ids h) dv dw b q
      = logitAt sp vl ids dv dw b q := by
  unfold logitFlatAt logitAt
  rw [sum_flat]
  simp only [reshape_flat_apply]

/-- The flat arrangement of the reshaped arrays is the [batch, table, position] arrangement. -/
theorem logitFlat_reshape (sp : (⟨2, ![65536, 16]⟩ : Shape).Idx → EReal) (vl : (⟨3, ![65536, 4, 50]⟩ : Shape).Idx → EReal)
    (ids : (⟨3, ![65536, 4, 50]⟩ : Shape).Idx → BitVec 32) (dv : (⟨2, ![65536, 13]⟩ : Shape).Idx → EReal)
    (dw : (⟨2, ![13, 1]⟩ : Shape).Idx → EReal)
    (h : (⟨3, ![65536, 4, 50]⟩ : Shape).ShapeCasts ⟨2, ![65536, 200]⟩) :
    logitFlat sp (shapeCast ⟨2, ![65536, 200]⟩ vl h) (shapeCast ⟨2, ![65536, 200]⟩ ids h) dv dw = logit sp vl ids dv dw :=
  funext fun i => logitFlatAt_reshape sp vl ids dv dw h (i 0) (i 1)

end Cert.Spec

end
-- ==== Proof.RefSide.lean ====
/-
  The reference's result, read one operation at a time, is the pooled logit of the gathered embeddings: its sum over the
  position axis, then over the table axis, its row sum of the single-valued embeddings and its matrix product with the
  dense weights are, index by index on the extended reals, the three summands of `Cert.Spec.logit`; the zero each
  host sum starts from drops out. The two gathers stay whole: they are the same terms on the kernel's side.
-/
import proofs.«147693_j50568944943395_1_alg».proof.Proof.Gen.ReferenceIdeal.Read
import proofs.«147693_j50568944943395_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Row `b`, entry `k` of the single-valued embeddings, as the reference's row sum reaches it. -/
theorem idx_sparse (b : Fin 65536) (q : Fin 1) (k : Fin 16) :
    idx_main_v39 (idx_main_v43 (ix2 b q)) k = ix2 b k :=
  funext fun a => Fin.ext (by match a with | ⟨0, _⟩ => rfl | ⟨1, _⟩ => rfl)

/-- Row `b`, table `a`, position `l` of the varlen embeddings, as the reference's two nested sums reach it. -/
theorem idx_varlen (b : Fin 65536) (q : Fin 1) (a : Fin 4) (l : Fin 50) :
    idx_main_v38 (idx_main_v40 (idx_main_v43 (ix2 b q)) a) l = ix3 b a l :=
  funext fun e => Fin.ext (by match e with | ⟨0, _⟩ => rfl | ⟨1, _⟩ => rfl | ⟨2, _⟩ => rfl)

/-- The dense features' entry the product reads on the left, -/
theorem idx_dense (b : Fin 65536) (q : Fin 1) (d : Fin 13) : lidx_main_v42 (ix2 b q) d = ix2 b d :=
  funext fun a => Fin.ext (by match a with | ⟨0, _⟩ => rfl | ⟨1, _⟩ => rfl)

/-- and the weight it reads on the right. -/
theorem idx_weight (b : Fin 65536) (q : Fin 1) (d : Fin 13) : ridx_main_v42 (ix2 b q) d = ix2 d q :=
  funext fun a => Fin.ext (by match a with | ⟨0, _⟩ => rfl | ⟨1, _⟩ => rfl)

/-- The reference's result is the pooled logit of its two gathered arrays, the ids, the dense features and the weights. -/
theorem result_eq (x0 : (⟨S65536x16, .i32⟩ : BufTy).Contents (Elt Ideal)) (x1 : (⟨S65536x4x50, .i32⟩ : BufTy).Contents (Elt Ideal))
    (x2 : (⟨S65536x13, .f32⟩ : BufTy).Contents (Elt Ideal)) (x3 : (⟨S16x1000000, .f32⟩ : BufTy).Contents (Elt Ideal))
    (x4 : (⟨S4x1000000, .f32⟩ : BufTy).Contents (Elt Ideal)) (x5 : (⟨S13x1, .f32⟩ : BufTy).Contents (Elt Ideal)) :
    val_main_v44 (F := Ideal) x0 x1 x2 x3 x4 x5
      = Cert.Spec.logit (val_main_v16 (F := Ideal) x0 x3) (val_main_v33 (F := Ideal) x1 x4) x1 x2 x5 := by
  funext i
  obtain ⟨b, q, rfl⟩ : ∃ (b : Fin 65536) (q : Fin 1), i = ix2 b q := ⟨i 0, i 1, eq_ix2 i⟩
  rw [val_main_v44_apply, val_main_v43_apply, val_main_v41_apply, val_main_v39_apply, val_main_v40_apply, val_main_v42_apply]
  simp only [val_main_v38_apply, val_main_v37_apply, val_main_v36_apply, val_main_v35_apply, val_main_v34_apply,
    val_main_c_7_apply, val_main_cst_apply, val_main_cst_8_apply, val_main_cst_9_apply,
    idx_sparse, idx_varlen, idx_dense, idx_weight,
    Ideal.addf_def, Ideal.mulf_def, Ideal.ofBits_def, Ideal.ofBits_zero_f32, zero_add]
  rfl

end Cert.ReferenceIdeal.RefValue

end
-- ==== Proof.Payload.lean ====
/-
  What the kernel body stores, read at one entry of its [2048, 1] block: at row `p` the body's value is the row's
  sixteen single-valued embeddings summed, plus the row's 200 varlen embeddings each times its id's mask summed, plus
  the row of dense features against the weight column. At the ideal instance a lane sum is a finite sum, the matrix
  product into a zero accumulator is the sum of products, and the mask — the compare's bit widened and converted — is
  `Cert.Spec.keep` of the id.
-/
import proofs.«147693_j50568944943395_1_alg».proof.Proof.Gen.KernelIdeal.Skeleton
import proofs.«147693_j50568944943395_1_alg».proof.Proof.Spec
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-- A column [2048] viewed as [2048, 1] reads, at `(p, q)`, the column's entry `p`. -/
theorem column_apply {α : Type} (v : S2048.Idx → α) (h : S2048.ShapeCasts S2048x1) (p : Fin 2048) (q : Fin 1) :
    shapeCast S2048x1 v h (ix2 p q) = v (ix1 p) :=
  shapeCast_apply v h _ _ (by
    rw [Shape.rowMajor_val_one, Shape.rowMajor_val_two]
    show p.val = p.val * 1 + q.val
    have := q.isLt
    omega)

/-- The lane sum of a [2048, 16] block at row `p` is the sum of the row's sixteen entries. -/
theorem rowsum16_apply (v : FVec Ideal S2048x16 .f32) (h : S2048x16.Reduces [1] S2048) (hφ : FKind.Formats .f32)
    (hacc : (0x00000000#32 : BitVec 32) = 0x00000000#32) (p : Fin 2048) :
    multiReduction .add [1] S2048 v 0x00000000#32 h hφ hacc (ix1 p) = ∑ k : Fin 16, v (ix2 p k) := by
  refine (Ideal.multiReduction_add_single v 0x00000000#32 h hφ hacc (ix1 p)).trans ?_
  refine Finset.sum_congr rfl fun k _ => congrArg v ?_
  exact funext fun a => Fin.ext (by match a with | ⟨0, _⟩ => rfl | ⟨1, _⟩ => rfl)

/-- The lane sum of a [2048, 200] block at row `p` is the sum of the row's 200 entries. -/
theorem rowsum200_apply (v : FVec Ideal S2048x200 .f32) (h : S2048x200.Reduces [1] S2048) (hφ : FKind.Formats .f32)
    (hacc : (0x00000000#32 : BitVec 32) = 0x00000000#32) (p : Fin 2048) :
    multiReduction .add [1] S2048 v 0x00000000#32 h hφ hacc (ix1 p) = ∑ k : Fin 200, v (ix2 p k) := by
  refine (Ideal.multiReduction_add_single v 0x00000000#32 h hφ hacc (ix1 p)).trans ?_
  refine Finset.sum_congr rfl fun k _ => congrArg v ?_
  exact funext fun a => Fin.ext (by match a with | ⟨0, _⟩ => rfl | ⟨1, _⟩ => rfl)

/-! The product's operand indices, axis by axis: the left operand is read at (row, contracted), the right at
    (contracted, column). -/

theorem lhs_dense_0 (i : S2048x1.Idx) (q : dot_S2048x13_S13x1_S2048x1_1_0_0_1_n_n.contr.Idx) :
    (dot_S2048x13_S13x1_S2048x1_1_0_0_1_n_n.lhsIdx i q 0).val = (i 0).val := by
  unfold DotDims.lhsIdx
  rw [dif_neg (show ¬(0 : Fin S2048x13.rank) ∈ dot_S2048x13_S13x1_S2048x1_1_0_0_1_n_n.lhsBatch by decide), dif_pos (show (0 : Fin S2048x13.rank) ∈ dot_S2048x13_S13x1_S2048x1_1_0_0_1_n_n.lhsNonContracting by decide)]
  rfl
theorem lhs_dense_1 (i : S2048x1.Idx) (q : dot_S2048x13_S13x1_S2048x1_1_0_0_1_n_n.contr.Idx) :
    (dot_S2048x13_S13x1_S2048x1_1_0_0_1_n_n.lhsIdx i q 1).val = (q ⟨0, by decide⟩).val :=
  dot_S2048x13_S13x1_S2048x1_1_0_0_1_n_n.lhsIdx_val_of_single rfl i q
theorem rhs_dense_0 (i : S2048x1.Idx) (q : dot_S2048x13_S13x1_S2048x1_1_0_0_1_n_n.contr.Idx) :
    (dot_S2048x13_S13x1_S2048x1_1_0_0_1_n_n.rhsIdx i q 0).val = (q ⟨0, by decide⟩).val :=
  dot_S2048x13_S13x1_S2048x1_1_0_0_1_n_n.rhsIdx_val_of_single rfl i q
theorem rhs_dense_1 (i : S2048x1.Idx) (q : dot_S2048x13_S13x1_S2048x1_1_0_0_1_n_n.contr.Idx) :
    (dot_S2048x13_S13x1_S2048x1_1_0_0_1_n_n.rhsIdx i q 1).val = (i 1).val := by
  unfold DotDims.rhsIdx
  rw [dif_neg (show ¬(1 : Fin S13x1.rank) ∈ dot_S2048x13_S13x1_S2048x1_1_0_0_1_n_n.rhsBatch by decide), dif_pos (show (1 : Fin S13x1.rank) ∈ dot_S2048x13_S13x1_S2048x1_1_0_0_1_n_n.rhsNonContracting by decide)]
  rfl

/-- The block of dense features times the weight column, into a zero accumulator, at `(p, q)`: the sum over the
    thirteen features of feature times weight. -/
theorem dense_apply (x3 : FVec Ideal S2048x13 .f32) (x4 : FVec Ideal S13x1 .f32) (p : Fin 2048) (q : Fin 1) :
    matmul dot_S2048x13_S13x1_S2048x1_1_0_0_1_n_n none x3 x4 (constant S2048x1 .f32 0x00000000#32) (ix2 p q)
      = ∑ d : Fin 13, x3 (ix2 p d) * x4 (ix2 d q) := by
  refine (Ideal.matmul_constant_zero_apply dot_S2048x13_S13x1_S2048x1_1_0_0_1_n_n none x3 x4 (ix2 p q)).trans ?_
  rw [← Equiv.sum_comp (ValueIdx.contrEquiv1 dot_S2048x13_S13x1_S2048x1_1_0_0_1_n_n 13 rfl rfl).symm]
  refine Finset.sum_congr rfl fun k _ => ?_
  have hk := ValueIdx.contrEquiv1_symm_val dot_S2048x13_S13x1_S2048x1_1_0_0_1_n_n 13 rfl rfl k
  have el : dot_S2048x13_S13x1_S2048x1_1_0_0_1_n_n.lhsIdx (ix2 p q) ((ValueIdx.contrEquiv1 dot_S2048x13_S13x1_S2048x1_1_0_0_1_n_n 13 rfl rfl).symm k) = ix2 p k := funext fun a => Fin.ext (by
    match a with
    | ⟨0, _⟩ => exact lhs_dense_0 _ _
    | ⟨1, _⟩ => exact (lhs_dense_1 _ _).trans hk)
  have er : dot_S2048x13_S13x1_S2048x1_1_0_0_1_n_n.rhsIdx (ix2 p q) ((ValueIdx.contrEquiv1 dot_S2048x13_S13x1_S2048x1_1_0_0_1_n_n 13 rfl rfl).symm k) = ix2 k q := funext fun a => Fin.ext (by
    match a with
    | ⟨0, _⟩ => exact (rhs_dense_0 _ _).trans hk
    | ⟨1, _⟩ => exact rhs_dense_1 _ _)
  rw [el, er]

/-- The masked varlen block at `(p, k)`: the embedding times `keep` of its id. -/
theorem masked_apply (x1 : FVec Ideal S2048x200 .f32) (x2 : IVec S2048x200 32) (h : 1 < 32) (p : Fin 2048) (k : Fin 200) :
    mulf x1 (sitofp .f32 (extui 32 (cmpi .sgt x2 (broadcast S2048x200 0#32)) h)) (ix2 p k)
      = x1 (ix2 p k) * Cert.Spec.keep (x2 (ix2 p k)) :=
  congrArg (x1 (ix2 p k) * ·) (Cert.Spec.keep_of_widened (x2 (ix2 p k)))

/-- THE BODY'S VALUE at row `p` of its block. -/
theorem pay_apply (x0 : Vec Ideal S2048x16 .f32) (x1 : Vec Ideal S2048x200 .f32) (x2 : Vec Ideal S2048x200 .i32)
    (x3 : Vec Ideal S2048x13 .f32) (x4 : Vec Ideal S13x1 .f32) (p : Fin 2048) (q : Fin 1) :
    k0_pay1 (F := Ideal) x0 x1 x2 x3 x4 (ix2 p q)
      = ((∑ k : Fin 16, x0 (ix2 p k)) + ∑ k : Fin 200, x1 (ix2 p k) * Cert.Spec.keep (x2 (ix2 p k)))
        + ∑ d : Fin 13, x3 (ix2 p d) * x4 (ix2 d q) := by
  unfold k0_pay1
  dsimp only
  simp only [shapeCast_self]
  rw [addf_apply, addf_apply, column_apply, column_apply]
  refine congrArg₂ (· + ·) (congrArg₂ (· + ·) (rowsum16_apply x0 _ _ _ p) ((rowsum200_apply _ _ _ _ p).trans ?_))
    (dense_apply x3 x4 p q)
  exact Finset.sum_congr rfl fun k _ => masked_apply x1 x2 _ p k

end Cert.KernelIdeal.Hand

end
-- ==== Proof.KerValue.lean ====
/-
  The kernel's result array as ONE function of the arrays its region finds. Grid point `t` stages rows
  `2048 t … 2048 t + 2047` of the four batch-major operands (and the whole weight column), so what it writes back is
  rows `2048 t …` of the flat-layout logit `Cert.Spec.logitFlat` of those arrays; the 32 points' blocks tile the
  [65536, 1] result, so the result array ends holding that logit everywhere.
-/
import proofs.«147693_j50568944943395_1_alg».proof.Proof.Gen.KernelIdeal.Value
import proofs.«147693_j50568944943395_1_alg».proof.Proof.Payload
import Idealize.ShloMosaic.Lib.Pipeline.Value
import Idealize.ShloMosaic.Lib.Tactic

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 32 grid points: every batch-major window's block index is `(t, 0)`, the
    weight column's is `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each staged block as rows of its array -/

/-- The single-valued embeddings' block at point `t`: rows `2048 t + p` of the gathered array. -/
theorem sparse_block (c : Dev nD) (t : Fin cfg0.N) (p : Fin 2048) (k : Fin 16) (b : Fin 65536) (hb : b.val = t.val * 2048 + p.val) :
    (iblk m c 0 t : Vec Ideal S2048x16 .f32) (ix2 p k) = (V m c main_v16 : S65536x16.Idx → EReal) (ix2 b k) := by
  obtain ⟨e0, e1, -⟩ := block_indices t
  unfold iblk
  rw [View.read_apply]
  show V m c main_v16 _ = V m c main_v16 _
  congr 1
  funext a
  apply Fin.ext
  match a with
  | ⟨0, _⟩ => show win0_0.index t (0 : Fin 2) * 2048 + 1 * p.val = b.val; rw [e0, hb]; omega
  | ⟨1, _⟩ => show win0_0.index t (1 : Fin 2) * 16 + 1 * k.val = k.val; rw [e1]; omega

/-- The flat varlen embeddings' block at point `t`. -/
theorem varlen_block (c : Dev nD) (t : Fin cfg0.N) (p : Fin 2048) (k : Fin 200) (b : Fin 65536) (hb : b.val = t.val * 2048 + p.val) :
    (iblk m c 1 t : Vec Ideal S2048x200 .f32) (ix2 p k) = (V m c main_v34 : S65536x200.Idx → EReal) (ix2 b k) := by
  obtain ⟨-, -, e0, e1, -⟩ := block_indices t
  unfold iblk
  rw [View.read_apply]
  show V m c main_v34 _ = V m c main_v34 _
  congr 1
  funext a
  apply Fin.ext
  match a with
  | ⟨0, _⟩ => show win0_1.index t (0 : Fin 2) * 2048 + 1 * p.val = b.val; rw [e0, hb]; omega
  | ⟨1, _⟩ => show win0_1.index t (1 : Fin 2) * 200 + 1 * k.val = k.val; rw [e1]; omega

/-- The flat ids' block at point `t`. -/
theorem ids_block (c : Dev nD) (t : Fin cfg0.N) (p : Fin 2048) (k : Fin 200) (b : Fin 65536) (hb : b.val = t.val * 2048 + p.val) :
    (iblk m c 2 t : Vec Ideal S2048x200 .i32) (ix2 p k) = (V m c main_v35 : S65536x200.Idx → BitVec 32) (ix2 b k) := by
  obtain ⟨-, -, -, -, e0, e1, -⟩ := block_indices t
  unfold iblk
  rw [View.read_apply]
  show V m c main_v35 _ = V m c main_v35 _
  congr 1
  funext a
  apply Fin.ext
  match a with
  | ⟨0, _⟩ => show win0_2.index t (0 : Fin 2) * 2048 + 1 * p.val = b.val; rw [e0, hb]; omega
  | ⟨1, _⟩ => show win0_2.index t (1 : Fin 2) * 200 + 1 * k.val = k.val; rw [e1]; omega

/-- The dense features' block at point `t`. -/
theorem dense_block (c : Dev nD) (t : Fin cfg0.N) (p : Fin 2048) (d : Fin 13) (b : Fin 65536) (hb : b.val = t.val * 2048 + p.val) :
    (iblk m c 3 t : Vec Ideal S2048x13 .f32) (ix2 p d) = (V m c main_arg2 : S65536x13.Idx → EReal) (ix2 b d) := by
  obtain ⟨-, -, -, -, -, -, e0, e1, -⟩ := block_indices t
  unfold iblk
  rw [View.read_apply]
  show V m c main_arg2 _ = V m c main_arg2 _
  congr 1
  funext a
  apply Fin.ext
  match a with
  | ⟨0, _⟩ => show win0_3.index t (0 : Fin 2) * 2048 + 1 * p.val = b.val; rw [e0, hb]; omega
  | ⟨1, _⟩ => show win0_3.index t (1 : Fin 2) * 13 + 1 * d.val = d.val; rw [e1]; omega

/-- The weight column's block is the whole column at every point. -/
theorem weight_block (c : Dev nD) (t : Fin cfg0.N) (d : Fin 13) (q : Fin 1) :
    (iblk m c 4 t : Vec Ideal S13x1 .f32) (ix2 d q) = (V m c main_arg5 : S13x1.Idx → EReal) (ix2 d q) := by
  obtain ⟨-, -, -, -, -, -, -, -, e0, e1, -⟩ := block_indices t
  unfold iblk
  rw [View.read_apply]
  show V m c main_arg5 _ = V m c main_arg5 _
  congr 1
  funext a
  apply Fin.ext
  match a with
  | ⟨0, _⟩ => show win0_4.index t (0 : Fin 2) * 13 + 1 * d.val = d.val; rw [e0]; omega
  | ⟨1, _⟩ => show win0_4.index t (1 : Fin 2) * 1 + 1 * q.val = q.val; rw [e1]; omega

/-! ## What a point writes back, and the array after the run -/

/-- The flat-layout logit of the arrays as the region finds them. -/
abbrev regionLogit (c : Dev nD) : S65536x1.Idx → EReal :=
  Cert.Spec.logitFlat (V m c main_v16) (V m c main_v34) (V m c main_v35) (V m c main_arg2) (V m c main_arg5)

/-- WHAT POINT `t` WRITES BACK is block `t` of `regionLogit`. -/
theorem flushed_eq (c : Dev nD) (t : Fin cfg0.N) :
    (dats m 0 c).flushed 5 t = ((cfg0.win 5).blk t).view.read (Elt Ideal) (regionLogit m c) := by
  rw [flushed5]
  unfold out0_5
  rw [View.canon_unit_zero zero_offsets]
  simp only [View.ld_unit_zero (S := S2048x16) zero_offsets, View.ld_unit_zero (S := S2048x200) zero_offsets,
    View.ld_unit_zero (S := S2048x13) zero_offsets, View.ld_unit_zero (S := S13x1) zero_offsets]
  funext j
  obtain ⟨p, q, rfl⟩ : ∃ (p : Fin 2048) (q : Fin 1), j = ix2 p q := ⟨j 0, j 1, eq_ix2 j⟩
  have hN : cfg0.N = 32 := N_0
  have ht := t.isLt
  have hp := p.isLt
  obtain ⟨b, hb⟩ : ∃ b : Fin 65536, b.val = t.val * 2048 + p.val := ⟨⟨t.val * 2048 + p.val, by omega⟩, rfl⟩
  obtain ⟨-, -, -, -, -, -, -, -, -, -, e0, e1⟩ := block_indices t
  have hemb : ((cfg0.win 5).blk t).view.emb (ix2 p q) = (ix2 b q : S65536x1.Idx) := by
    funext a
    apply Fin.ext
    match a with
    | ⟨0, _⟩ => show win0_5.index t (0 : Fin 2) * 2048 + 1 * p.val = b.val; rw [e0, hb]; omega
    | ⟨1, _⟩ => show win0_5.index t (1 : Fin 2) * 1 + 1 * q.val = q.val; rw [e1]; omega
  show k0_pay1 (F := Ideal) (iblk m c 0 t) (iblk m c 1 t) (iblk m c 2 t) (iblk m c 3 t) (iblk m c 4 t) (ix2 p q)
    = regionLogit m c (((cfg0.win 5).blk t).view.emb (ix2 p q))
  rw [hemb]
  refine (pay_apply (iblk m c 0 t) (iblk m c 1 t) (iblk m c 2 t) (iblk m c 3 t) (iblk m c 4 t) p q).trans ?_
  show _ = Cert.Spec.logitFlatAt (V m c main_v16) (V m c main_v34) (V m c main_v35) (V m c main_arg2) (V m c main_arg5) b q
  unfold Cert.Spec.logitFlatAt
  refine congrArg₂ (· + ·) (congrArg₂ (· + ·) (Finset.sum_congr rfl fun k _ => sparse_block m c t p k b hb)
    (Finset.sum_congr rfl fun k _ => ?_)) (Finset.sum_congr rfl fun d _ => ?_)
  · rw [varlen_block m c t p k b hb, ids_block m c t p k b hb]
  · rw [dense_block m c t p d b hb, weight_block m c t d q]

/-- An index of the result array is in point `t`'s block iff each coordinate is in the block's range on its axis. -/
theorem mem_block (t : Fin cfg0.N) (i : S65536x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v36).slice (win0_5.rect t)).set ↔ _
  rw [View.set_slice_whole, Rect.mem_set_unit]
  exact Iff.rfl

/-- Every row of the result is in the block of the point `row / 2048`. -/
theorem covered (i : S65536x1.Idx) : ∃ t : Fin cfg0.N, (cfg0.win 5).flush t = true ∧ i ∈ ((cfg0.win 5).blk t).view.set := by
  have hN : cfg0.N = 32 := N_0
  have hi0 : (i 0).val < 65536 := (i 0).isLt
  have hi1 : (i 1).val < 1 := (i 1).isLt
  let t : Fin cfg0.N := ⟨(i 0).val / 2048, by omega⟩
  obtain ⟨-, -, -, -, -, -, -, -, -, -, e0, e1⟩ := block_indices t
  have ht : t.val = (i 0).val / 2048 := rfl
  refine ⟨t, flush0_5 t, ?_⟩
  rw [mem_block]
  intro a
  match a with
  | ⟨0, _⟩ => show win0_5.index t (0 : Fin 2) * 2048 ≤ (i 0).val ∧ (i 0).val < win0_5.index t (0 : Fin 2) * 2048 + 2048; rw [e0, ht]; omega
  | ⟨1, _⟩ => show win0_5.index t (1 : Fin 2) * 1 ≤ (i 1).val ∧ (i 1).val < win0_5.index t (1 : Fin 2) * 1 + 1; rw [e1]; omega

/-- THE RESULT ARRAY after the run is `regionLogit`. -/
theorem final (c : Dev nD) : (dats m 0 c).arrAt 5 cfg0.N = regionLogit m c :=
  (dats m 0 c).arrAt_eq_of_cover 5 (regionLogit m c) (fun t _ => flushed_eq m c t) covered

end Cert.KernelIdeal.Hand

end
-- ==== Proof.HostSide.lean ====
/-
  The arrays the kernel's region finds, as functions of the program's arguments. Before the region the program
  gathers the single-valued embeddings (one entry per batch row and table) and the varlen embeddings (one per row,
  table and position) with exactly the index arithmetic the reference uses — a negative id wrapped once, table numbers
  from an iota — and then only re-lays the varlen embeddings and the ids from [batch, table, position] to
  [batch, table * position]. So the two gathered arrays are the reference's own stages of the same arguments, and the
  kernel's result array, the flat-layout logit of what the region finds, is the [batch, table, position] logit of them.
-/
import proofs.«147693_j50568944943395_1_alg».proof.Proof.Gen.ReferenceIdeal.Read
import proofs.«147693_j50568944943395_1_alg».proof.Proof.KerValue
import Idealize.ShloMosaic.Lib.StableHlo.Run

noncomputable section

namespace Cert.KernelIdeal.Hand

open Cert.KernelIdeal Cert.KernelIdeal.Gen Cert.KernelIdeal.Value Idealize.ShloMosaic Idealize.ShloMosaic.TcCoe Idealize.SL.Sem
open Idealize.ShloMosaic.StableHlo

variable (m : (ℓ : Loc nD τ sig) → Buf (Elt Ideal) ℓ) (ρ : Dev nD → PrngReg)

set_option maxRecDepth 8192 in
set_option maxHeartbeats 2000000 in
/-- The single-valued embeddings the region finds are the reference's gather of the same ids and table. -/
theorem sparse_gathered (c : Dev nD) :
    (V m c main_v16 : S65536x16.Idx → EReal)
      = Cert.ReferenceIdeal.Read.val_main_v16 (F := Ideal) (m ((c : Thread nD τ).loc main_arg0)) (m ((c : Thread nD τ).loc main_arg3)) := by
  dsimp only [Gen.V, Gen.hostOps0]
  after_results_simp <;> rfl

set_option maxRecDepth 8192 in
set_option maxHeartbeats 2000000 in
/-- The flat varlen embeddings the region finds are the reference's gather, re-laid. -/
theorem varlen_gathered (c : Dev nD) :
    (V m c main_v34 : S65536x200.Idx → EReal)
      = shapeCast S65536x200 (Cert.ReferenceIdeal.Read.val_main_v33 (F := Ideal) (m ((c : Thread nD τ).loc main_arg1)) (m ((c : Thread nD τ).loc main_arg4)))
          shapeCasts_S65536x4x50_S65536x200 := by
  dsimp only [Gen.V, Gen.hostOps0]
  after_results_simp <;> rfl

set_option maxRecDepth 8192 in
set_option maxHeartbeats 2000000 in
/-- The flat ids the region finds are the varlen ids, re-laid. -/
theorem ids_relaid (c : Dev nD) :
    (V m c main_v35 : S65536x200.Idx → BitVec 32)
      = shapeCast S65536x200 (m ((c : Thread nD τ).loc main_arg1) : S65536x4x50.Idx → BitVec 32) shapeCasts_S65536x4x50_S65536x200 := by
  dsimp only [Gen.V, Gen.hostOps0]
  after_results_simp <;> rfl

/-- The kernel's logit of its arguments: the [batch, table, position] logit of the two gathers. -/
abbrev result (c : Dev nD) : S65536x1.Idx → EReal :=
  Cert.Spec.logit
    (Cert.ReferenceIdeal.Read.val_main_v16 (F := Ideal) (m ((c : Thread nD τ).loc main_arg0)) (m ((c : Thread nD τ).loc main_arg3)))
    (Cert.ReferenceIdeal.Read.val_main_v33 (F := Ideal) (m ((c : Thread nD τ).loc main_arg1)) (m ((c : Thread nD τ).loc main_arg4)))
    (m ((c : Thread nD τ).loc main_arg1)) (m ((c : Thread nD τ).loc main_arg2)) (m ((c : Thread nD τ).loc main_arg5))

/-- What the region computes from what it finds is `result` of the arguments. -/
theorem regionLogit_eq (c : Dev nD) : regionLogit m c = result m c := by
  unfold regionLogit
  rw [sparse_gathered, varlen_gathered, ids_relaid, V_main_arg2, V_main_arg5]
  exact Cert.Spec.logitFlat_reshape _ _ _ _ _ _

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((final m c).trans (regionLogit_eq m c)), (h c).2⟩)
    (run_blocks m ρ)

end Cert.KernelIdeal.Hand

end
-- ==== Proof.lean ====
/-
  A pooled linear model: per batch row, the sum of sixteen single-valued embeddings, of 4 × 50 varlen embeddings with the
  padding id (and anything not positive) masked out, and of thirteen dense features against a weight column.
  Kernel and reference gather the embeddings with the same host operations; they differ only in how the varlen
  embeddings are summed — the kernel over a flat axis of 200 in one lane reduction, the reference over the 50 positions
  and then the 4 tables — and in that the kernel tiles the batch into 32 blocks of 2048 rows and forms the dense
  product per block. On the extended reals both are the same finite sums regrouped (addition there is commutative and
  associative; no finiteness of the inputs is used), the mask is the same 0 / 1 whether the compare's bit is widened and
  read signed or read unsigned, and a product into a zero accumulator is the plain sum of products.
  The kernels' frames are the generated ones; the reference's frame is its generated run with the result dropped; the
  ideal pass rewrote nothing, so there is nothing to preserve.
-/
import proofs.«147693_j50568944943395_1_alg».proof.Defs
import proofs.«147693_j50568944943395_1_alg».proof.Proof.Gen.Kernel
import proofs.«147693_j50568944943395_1_alg».proof.Proof.Gen.Kernel.Skeleton
import proofs.«147693_j50568944943395_1_alg».proof.Proof.Gen.Kernel.Launch
import proofs.«147693_j50568944943395_1_alg».proof.Proof.Gen.Kernel.Points
import proofs.«147693_j50568944943395_1_alg».proof.Proof.Gen.Kernel.Frame
import proofs.«147693_j50568944943395_1_alg».proof.Proof.Gen.KernelIdeal
import proofs.«147693_j50568944943395_1_alg».proof.Proof.Gen.KernelIdeal.Skeleton
import proofs.«147693_j50568944943395_1_alg».proof.Proof.Gen.KernelIdeal.Launch
import proofs.«147693_j50568944943395_1_alg».proof.Proof.Gen.KernelIdeal.Points
import proofs.«147693_j50568944943395_1_alg».proof.Proof.Gen.KernelIdeal.Frame
import proofs.«147693_j50568944943395_1_alg».proof.Proof.Gen.ReferenceIdeal
import proofs.«147693_j50568944943395_1_alg».proof.Proof.Gen.Pre_finite_inputs
import proofs.«147693_j50568944943395_1_alg».proof.Proof.Gen.KernelIdeal.Value
import proofs.«147693_j50568944943395_1_alg».proof.Proof.Gen.ReferenceIdeal.Run
import proofs.«147693_j50568944943395_1_alg».proof.Proof.Gen.ReferenceIdeal.Read
import proofs.«147693_j50568944943395_1_alg».proof.Proof.RefSide
import proofs.«147693_j50568944943395_1_alg».proof.Proof.HostSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the pooled logit of the same two gathers, ids, dense features and weights: the kernel's
    result array by its 32 blocks (each the flat-layout logit of its rows, regrouped), the reference's by its
    operations read one at a time. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v44_eq, Cert.ReferenceIdeal.RefValue.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
